-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn_part1 {F : FTy → Type} [FloatOps F] (main_v13 : IVec S_ 1) (main_v16 : IVec S64x2048x1024 1) : IVec S_ 1 :=
  let main_c_5 : IVec S_ 1 := constantI S_ 1 1#1
  let main_v17 : IVec S_ 1 := (fun x v => Host.reduce IntOp.andi x v reducesTo_S64x2048x1024_S_d0_1_2 h_S_) main_v16 main_c_5
  let main_v18 : IVec S_ 1 := andi main_v13 main_v17
  main_v18

def fn {F : FTy → Type} [FloatOps F] (main_arg0 : FVec F S16384x2048 .f32) (main_arg1 : FVec F S64x2048x1024 .f32) (main_arg2 : FVec F S64x1024x2048 .f32) (main_arg3 : FVec F S64x2048x1024 .f32) (main_arg4 : IVec S64 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x1024x2048 .f32 := Host.absf main_arg2
  let main_cst_2 : FVec F S_ .f32 := constant S_ .f32 0x7F800000#32
  let main_v10 : FVec F S64x1024x2048 .f32 := broadcastInDim S64x1024x2048 ![] bcast_S_S64x1024x2048 main_cst_2
  let main_v11 : IVec S64x1024x2048 1 := cmpf .olt main_v9 main_v10
  let main_c_3 : IVec S_ 1 := constantI S_ 1 1#1
  let main_v12 : IVec S_ 1 := (fun x v => Host.reduce IntOp.andi x v reducesTo_S64x1024x2048_S_d0_1_2 h_S_) main_v11 main_c_3
  let main_v13 : IVec S_ 1 := andi main_v8 main_v12
  let main_v14 : FVec F S64x2048x1024 .f32 := Host.absf main_arg3
  let main_cst_4 : FVec F S_ .f32 := constant S_ .f32 0x7F800000#32
  let main_v15 : FVec F S64x2048x1024 .f32 := broadcastInDim S64x2048x1024 ![] bcast_S_S64x2048x1024 main_cst_4
  let main_v16 : IVec S64x2048x1024 1 := cmpf .olt main_v14 main_v15
  fn_part1 (F := F) main_v13 main_v16
-- ==== Kernel.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S64x256x2048 : Shape := ⟨3, ![64, 256, 2048]⟩
abbrev S64x256x1024 : Shape := ⟨3, ![64, 256, 1024]⟩
abbrev S1x256x2048 : Shape := ⟨3, ![1, 256, 2048]⟩
abbrev S1x2048x1024 : Shape := ⟨3, ![1, 2048, 1024]⟩
abbrev S1x256x1024 : Shape := ⟨3, ![1, 256, 1024]⟩
abbrev S256x2048 : Shape := ⟨2, ![256, 2048]⟩
abbrev S2048x1024 : Shape := ⟨2, ![2048, 1024]⟩
abbrev S256x1024 : Shape := ⟨2, ![256, 1024]⟩
abbrev S1x1024x2048 : Shape := ⟨3, ![1, 1024, 2048]⟩
abbrev S1024x2048 : Shape := ⟨2, ![1024, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64, .i32⟩
  | .hbm, ⟨5, _⟩ => ⟨S64x256x2048, .f32⟩
  | .hbm, ⟨6, _⟩ => ⟨S64x256x1024, .bf16⟩
  | .hbm, ⟨7, _⟩ => ⟨S64x256x2048, .f32⟩
  | .hbm, ⟨8, _⟩ => ⟨S16384x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x2048, .f32⟩
  | .local _ .vmem, ⟨11, _⟩ => ⟨S1x1024x2048, .f32⟩
  | .local _ .vmem, ⟨12, _⟩ => ⟨S1x256x2048, .f32⟩
  | .local _ .vmem, ⟨13, _⟩ => ⟨S1x256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16384x2048_S64x256x2048 : S16384x2048.ShapeCasts S64x256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S256x2048_S1x256x2048 : S256x2048.ShapeCasts S1x256x2048
  shapeCasts_S64x256x2048_S16384x2048 : S64x256x2048.ShapeCasts S16384x2048
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S64x2048x1024.size a
  hwx0_1 : ∀ i : grid0.Coords, EltTy.bits .f32 = 32 ∨ (Rect.block (s := S64x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S64x2048x1024.size a
  hwx0_2 : ∀ i : grid0.Coords, EltTy.bits .f32 = 32 ∨ (Rect.block (s := S64x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .bf16 = 32 ∨ (Rect.block (s := S64x256x1024) S1x256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S64x256x1024.size a
  hwx1_0 : ∀ i : grid1.Coords, EltTy.bits .bf16 = 32 ∨ (Rect.block (s := S64x256x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S64x1024x2048.size a
  hwx1_1 : ∀ i : grid1.Coords, EltTy.bits .f32 = 32 ∨ (Rect.block (s := S64x1024x2048) S1x1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S64x256x2048.size a
  hwx1_2 : ∀ i : grid1.Coords, EltTy.bits .f32 = 32 ∨ (Rect.block (s := S64x256x2048) S1x256x2048.size (cc1_transform_2 i) (hinb1_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S64x256x2048 : Shape := ⟨3, ![64, 256, 2048]⟩
abbrev S64x256x1024 : Shape := ⟨3, ![64, 256, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64, .i32⟩
  | .hbm, ⟨5, _⟩ => ⟨S64x256x2048, .f32⟩
  | .hbm, ⟨6, _⟩ => ⟨S64x256x1024, .f32⟩
  | .hbm, ⟨7, _⟩ => ⟨S64x256x1024, .f32⟩
  | .hbm, ⟨8, _⟩ => ⟨S64x256x1024, .f32⟩
  | .hbm, ⟨9, _⟩ => ⟨S_, .f32⟩
  | .hbm, ⟨10, _⟩ => ⟨S64x256x1024, .f32⟩
  | .hbm, ⟨11, _⟩ => ⟨S64x256x1024, .f32⟩
  | .hbm, ⟨12, _⟩ => ⟨S_, .f32⟩
  | .hbm, ⟨13, _⟩ => ⟨S64x256x1024, .f32⟩
  | .hbm, ⟨14, _⟩ => ⟨S64x256x1024, .f32⟩
  | .hbm, ⟨15, _⟩ => ⟨S64x256x1024, .f32⟩
  | .hbm, ⟨16, _⟩ => ⟨S64x256x1024, .f32⟩
  | .hbm, ⟨17, _⟩ => ⟨S64x256x1024, .f32⟩
  | .hbm, ⟨18, _⟩ => ⟨S64x256x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x2048_S64x256x2048 : S16384x2048.ShapeCasts S64x256x2048
  bcast_S_S64x256x1024 : S_.BroadcastsInDim S64x256x1024 (![] : Fin 0 → Fin S64x256x1024.rank)
  shapeCasts_S64x256x2048_S16384x2048 : S64x256x2048.ShapeCasts S16384x2048
  dot_S64x256x2048_S64x2048x1024_S64x256x1024_2_1_1_2_0_0_wf : DotDims.WF S64x256x2048 S64x2048x1024 S64x256x1024 [2] [1] [1] [2] [0] [0]
  dot_S64x256x1024_S64x1024x2048_S64x256x2048_2_1_1_2_0_0_wf : DotDims.WF S64x256x1024 S64x1024x2048 S64x256x2048 [2] [1] [1] [2] [0] [0]

variable [Facts₀]

def dot_S64x256x2048_S64x2048x1024_S64x256x1024_2_1_1_2_0_0 : DotDims S64x256x2048 S64x2048x1024 S64x256x1024 where
  lhsContracting := [2]
  rhsContracting := [1]
  lhsNonContracting := [1]
  rhsNonContracting := [2]
  lhsBatch := [0]
  rhsBatch := [0]
  wf := dot_S64x256x2048_S64x2048x1024_S64x256x1024_2_1_1_2_0_0_wf
def dot_S64x256x1024_S64x1024x2048_S64x256x2048_2_1_1_2_0_0 : DotDims S64x256x1024 S64x1024x2048 S64x256x2048 where
  lhsContracting := [2]
  rhsContracting := [1]
  lhsNonContracting := [1]
  rhsNonContracting := [2]
  lhsBatch := [0]
  rhsBatch := [0]
  wf := dot_S64x256x1024_S64x1024x2048_S64x256x2048_2_1_1_2_0_0_wf

class Facts : Prop extends Facts₀ where

variable [Facts]
-- ==== Proof.Swiglu.lean ====
/-
  The mathematics both programs compute, on the extended reals, index by index.

  Sixteen thousand tokens of width 2048 are split into 64 consecutive groups of 256, one group per expert. For expert
  `e`, token `r` of its group and hidden unit `h`, the gate and the up projection are the inner products of the token
  with column `h` of the expert's first and third weight matrices; the hidden activation is `silu(gate) · up` with
  `silu g = g · (1 / (1 + e^(-g)))`; the result is the hidden row times the expert's second weight matrix, and the groups
  are laid end to end again.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Swiglu

open Idealize.ShloMosaic Idealize.ShloMosaic.ValueIdx

/-- Tokens as given: [16384, 2048]. -/
abbrev Tok : Shape := ⟨2, ![16384, 2048]⟩
/-- Tokens grouped by expert: [64, 256, 2048]. -/
abbrev TokE : Shape := ⟨3, ![64, 256, 2048]⟩
/-- The first and third weights: [64, 2048, 1024]. -/
abbrev WUp : Shape := ⟨3, ![64, 2048, 1024]⟩
/-- The second weights: [64, 1024, 2048]. -/
abbrev WDown : Shape := ⟨3, ![64, 1024, 2048]⟩
/-- Hidden activations: [64, 256, 1024]. -/
abbrev Hid : Shape := ⟨3, ![64, 256, 1024]⟩

/-- Token `r` of expert `e`'s group is row `256 e + r` of the token array. -/
def regroup (x : Tok.Idx → EReal) : TokE.Idx → EReal := fun i =>
  x (ix2 (⟨(i 0).val * 256 + (i 1).val, by
      have h0 : (i 0).val < 64 := (i 0).isLt; have h1 : (i 1).val < 256 := (i 1).isLt; omega⟩ : Fin 16384)
    (⟨(i 2).val, (i 2).isLt⟩ : Fin 2048))

/-- Row `n` of the result is token `n % 256` of expert `n / 256`. -/
def ungroup (y : TokE.Idx → EReal) : Tok.Idx → EReal := fun i =>
  y (ix3 (⟨(i 0).val / 256, by have h0 : (i 0).val < 16384 := (i 0).isLt; omega⟩ : Fin 64)
    (⟨(i 0).val % 256, Nat.mod_lt _ (by decide)⟩ : Fin 256) (⟨(i 1).val, (i 1).isLt⟩ : Fin 2048))

/-- One projection entry: token (e, r) against column `h` of expert `e`'s matrix. -/
def proj (X : TokE.Idx → EReal) (W : WUp.Idx → EReal) (e : Fin 64) (r : Fin 256) (h : Fin 1024) : EReal :=
  ∑ k : Fin 2048, X (ix3 e r k) * W (ix3 e k h)

/-- `silu(g) · u`, with `silu g = g · logistic g`. -/
def swish (g u : EReal) : EReal := g * Ideal.logistic g * u

/-- The hidden activation `silu(x w1) · (x w3)`. -/
def hidden (X : TokE.Idx → EReal) (W1 W3 : WUp.Idx → EReal) : Hid.Idx → EReal := fun i =>
  swish (proj X W1 ⟨(i 0).val, (i 0).isLt⟩ ⟨(i 1).val, (i 1).isLt⟩ ⟨(i 2).val, (i 2).isLt⟩)
    (proj X W3 ⟨(i 0).val, (i 0).isLt⟩ ⟨(i 1).val, (i 1).isLt⟩ ⟨(i 2).val, (i 2).isLt⟩)

/-- One entry of the down projection: hidden row (e, r) against column `d` of expert `e`'s second matrix. -/
def downAt (H : Hid.Idx → EReal) (W2 : WDown.Idx → EReal) (e : Fin 64) (r : Fin 256) (d : Fin 2048) : EReal :=
  ∑ k : Fin 1024, H (ix3 e r k) * W2 (ix3 e k d)

/-- The down projection, per expert. -/
def down (H : Hid.Idx → EReal) (W2 : WDown.Idx → EReal) : TokE.Idx → EReal := fun i =>
  downAt H W2 ⟨(i 0).val, (i 0).isLt⟩ ⟨(i 1).val, (i 1).isLt⟩ ⟨(i 2).val, (i 2).isLt⟩

/-- The whole computation. -/
def result (x : Tok.Idx → EReal) (w1 : WUp.Idx → EReal) (w2 : WDown.Idx → EReal) (w3 : WUp.Idx → EReal) : Tok.Idx → EReal :=
  ungroup (down (hidden (regroup x) w1 w3) w2)

/-- Viewing [16384, 2048] as [64, 256, 2048] keeps the row-major position: it is the grouping. -/
theorem shapeCast_regroup (x : Tok.Idx → EReal) (h : Tok.ShapeCasts TokE) : shapeCast TokE x h = regroup x := by
  funext i
  unfold regroup
  refine shapeCast_apply x h i _ ?_
  rewrite [Shape.rowMajor_val_two, Shape.rowMajor_val_three]
  rfl

/-- Viewing [64, 256, 2048] as [16384, 2048] likewise: it lays the groups end to end. -/
theorem shapeCast_ungroup (y : TokE.Idx → EReal) (h : TokE.ShapeCasts Tok) : shapeCast Tok y h = ungroup y := by
  funext i
  unfold ungroup
  refine shapeCast_apply y h i _ ?_
  rewrite [Shape.rowMajor_val_three, Shape.rowMajor_val_two]
  have h0 : (i 0).val < 16384 := (i 0).isLt
  show ((i 0).val / 256 * 256 + (i 0).val % 256) * 2048 + (i 1).val = (i 0).val * 2048 + (i 1).val
  omega

/-- The logistic function spelt out with a quotient, the word `0x3F800000` being the number one: `1 / (1 + e^(-g))`. -/
theorem logistic_spelt (g : EReal) :
    Ideal.div (Ideal.ofBits .f32 0x3F800000#32) (Ideal.ofBits .f32 0x3F800000#32 + Ideal.exp (-g)) = Ideal.logistic g := by
  rw [Ideal.ofBits_one_f32]; rfl

end Cert.Swiglu

end
-- ==== Proof.LibUnitAxis.lean ====
/-
  A block of an array with a leading axis of extent one, and the same block without that axis: reading either
  through the cast to the other, at explicit coordinates.
-/
import Idealize.ShloMosaic.Lib.ValueIdx
import Idealize.ShloMosaic.Lib.Pipeline.Value

namespace Cert.LibUnitAxis

open Idealize.ShloMosaic Idealize.ShloMosaic.ValueIdx

/-- A [1, a, b] block viewed as [a, b] reads entry (p, q) at (0, p, q). -/
theorem dropUnit3_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  (shapeCast_dropUnit_apply ![a, b] v h (ix2 p q)).trans
    (congrArg v (funext fun d => by match d with | ⟨0, _⟩ => rfl | ⟨1, _⟩ => rfl | ⟨2, _⟩ => rfl))

/-- An [a, b] value stored as a [1, a, b] block reads entry (0, p, q) at (p, q). -/
theorem addUnit3_apply {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) :=
  (shapeCast_addUnit_apply ![a, b] v h (ix3 (0 : Fin 1) p q)).trans
    (congrArg v (funext fun d => by match d with | ⟨0, _⟩ => rfl | ⟨1, _⟩ => rfl))

/-- Every index of a [1, a, b] block is (0, p, q). -/
theorem eq_ix3_unit {a b : Nat} (y : (⟨3, ![1, a, b]⟩ : Shape).Idx) :
    y = ix3 (0 : Fin 1) (⟨(y 1).val, (y 1).isLt⟩ : Fin a) (⟨(y 2).val, (y 2).isLt⟩ : Fin b) :=
  funext fun d => by
    match d with
    | ⟨0, _⟩ => exact Fin.ext (by have h : (y 0).val < 1 := (y 0).isLt; show (y 0).val = 0; omega)
    | ⟨1, _⟩ => rfl
    | ⟨2, _⟩ => rfl

end Cert.LibUnitAxis
-- ==== Proof.GateUpBody.lean ====
/-
  What the first kernel's body stores, entry by entry: from a [1, 256, 2048] block of tokens and two [1, 2048, 1024]
  blocks of weights, entry (0, r, h) of the stored block is `silu(g) · u` with `g` and `u` the inner products of token
  row `r` with column `h` of the two weight blocks. The changes of float format in the body are the identity on the
  extended reals, and a matrix product into a zero accumulator is the plain sum of products.
-/
import proofs.«112247_j23682449670360_1_alg».proof.Proof.Gen.KernelIdeal.Skeleton
import proofs.«112247_j23682449670360_1_alg».proof.Proof.Swiglu
import proofs.«112247_j23682449670360_1_alg».proof.Proof.LibUnitAxis
import Idealize.ShloMosaic.PureOps.Ideal.Laws
import Idealize.ShloMosaic.Lib.ValueIdx
import Idealize.ShloMosaic.Lib.Pipeline.Value

noncomputable section

namespace Cert.KernelIdeal.GateUp

open Cert.KernelIdeal Cert.KernelIdeal.Gen Idealize.ShloMosaic Idealize.ShloMosaic.ValueIdx Cert.LibUnitAxis

/-! ## The product's operand indices: rows of the left operand, columns of the right -/

theorem lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_inner (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_inner (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A [256, 2048] by [2048, 1024] product into zero, at entry (r, h): the sum over the 2048 inner positions. -/
theorem product_apply (A : FVec Ideal S256x2048 .bf16) (B : FVec Ideal S2048x1024 .bf16) (r : Fin 256) (h : Fin 1024) :
    matmul dot_S256x2048_S2048x1024_S256x1024_1_0_0_1_n_n none A B (constant (F := Ideal) S256x1024 .f32 0x00000000#32) (ix2 r h)
      = ∑ k : Fin 2048, A (ix2 r k) * B (ix2 k h) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r h) ((contrEquiv1 dot_S256x2048_S2048x1024_S256x1024_1_0_0_1_n_n 2048 rfl rfl).symm k) = ix2 r k := funext fun a => Fin.ext (by
    match a with
    | ⟨0, _⟩ => exact lhs_row _ _
    | ⟨1, _⟩ => exact (lhs_inner _ _).trans hk)
  have er : dot_S256x2048_S2048x1024_S256x1024_1_0_0_1_n_n.rhsIdx (ix2 r h) ((contrEquiv1 dot_S256x2048_S2048x1024_S256x1024_1_0_0_1_n_n 2048 rfl rfl).symm k) = ix2 k h := funext fun a => Fin.ext (by
    match a with
    | ⟨0, _⟩ => exact (rhs_inner _ _).trans hk
    | ⟨1, _⟩ => exact rhs_col _ _)
  rw [el, er]

/-- A projection of the token block against a weight block, both narrowed to bf16 first: the same sum over the blocks. -/
theorem projection_apply (x : Vec Ideal S1x256x2048 .f32) (w : Vec Ideal S1x2048x1024 .f32) (r : Fin 256) (h : Fin 1024) :
    matmul dot_S256x2048_S2048x1024_S256x1024_1_0_0_1_n_n none
        (truncf .bf16 (shapeCast S256x2048 x shapeCasts_S1x256x2048_S256x2048) bitsLt_bf16_f32)
        (truncf .bf16 (shapeCast S2048x1024 w shapeCasts_S1x2048x1024_S2048x1024) bitsLt_bf16_f32)
        (constant (F := Ideal) S256x1024 .f32 0x00000000#32) (ix2 r h)
      = ∑ k : Fin 2048, x (ix3 (0 : Fin 1) r k) * w (ix3 (0 : Fin 1) k h) := by
  rw [product_apply]
  refine Finset.sum_congr rfl fun k _ => ?_
  rw [truncf_apply, truncf_apply, dropUnit3_apply, dropUnit3_apply]

/-- THE BODY'S STORED BLOCK at (0, r, h). -/
theorem stored_apply (x : Vec Ideal S1x256x2048 .f32) (w1 w3 : Vec Ideal S1x2048x1024 .f32) (r : Fin 256) (h : Fin 1024) :
    k0_pay1 x w1 w3 (ix3 (0 : Fin 1) r h)
      = Swiglu.swish (∑ k : Fin 2048, x (ix3 (0 : Fin 1) r k) * w1 (ix3 (0 : Fin 1) k h))
          (∑ k : Fin 2048, x (ix3 (0 : Fin 1) r k) * w3 (ix3 (0 : Fin 1) k h)) := by
  unfold k0_pay1
  refine (addUnit3_apply _ _ r h).trans ?_
  rw [← projection_apply x w1 r h, ← projection_apply x w3 r h]
  rfl

end Cert.KernelIdeal.GateUp

end
-- ==== Proof.GateUpArray.lean ====
/-
  The first kernel's result array, whole: whatever the arrays hold when the kernel is entered, after its 64 grid
  points the hidden-activation array holds `silu(x w1) · (x w3)` of the token array and the two weight arrays as
  entered. Point `t` reads expert `t`'s block of each operand and writes expert `t`'s block of the result, so the 64
  written blocks are the blocks of ONE function of the entry arrays, and together they cover the result array.
-/
import proofs.«112247_j23682449670360_1_alg».proof.Proof.Gen.KernelIdeal.Frame
import proofs.«112247_j23682449670360_1_alg».proof.Proof.GateUpBody

set_option maxRecDepth 16384

noncomputable section

namespace Cert.KernelIdeal.GateUp

open Cert.KernelIdeal Cert.KernelIdeal.Gen Idealize.ShloMosaic Idealize.ShloMosaic.TcCoe Idealize.SL.Sem
open Idealize.ShloMosaic.ValueIdx Cert.LibUnitAxis
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-- Every window of the first kernel moves along the expert axis only: at point `t` its block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 64 := lt_of_lt_of_eq t.isLt (show cfg0.N = 64 from N_0)

/-- The expert a grid point works on. -/
abbrev expert (t : Fin cfg0.N) : Fin 64 := ⟨t.val, point_lt t⟩

/-- The token block at point `t` is expert `t`'s group. -/
theorem tokens_block (c : Dev nD) (t : Fin cfg0.N) (r : Fin 256) (k : Fin 2048) :
    iblk0 V c 0 t (ix3 (0 : Fin 1) r k) = (V c main_v0 : Swiglu.TokE.Idx → EReal) (ix3 (expert t) r k) := by
  obtain ⟨e0, e1, e2, -⟩ := block_index t
  show V c main_v0 (((cfg0.win 0).blk t).view.emb (ix3 (0 : Fin 1) r k)) = V c main_v0 (ix3 (expert t) r k)
  refine congrArg (V c main_v0) (funext fun a => Fin.ext ?_)
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 2048 + 1 * k.val = k.val; omega

/-- The first weight block at point `t` is expert `t`'s matrix. -/
theorem w1_block (c : Dev nD) (t : Fin cfg0.N) (k : Fin 2048) (h : Fin 1024) :
    iblk0 V c 1 t (ix3 (0 : Fin 1) k h) = (V c main_arg1 : Swiglu.WUp.Idx → EReal) (ix3 (expert t) k h) := by
  obtain ⟨-, -, -, e0, e1, e2, -⟩ := block_index t
  show V c main_arg1 (((cfg0.win 1).blk t).view.emb (ix3 (0 : Fin 1) k h)) = V c main_arg1 (ix3 (expert t) k h)
  refine congrArg (V c main_arg1) (funext fun a => Fin.ext ?_)
  match a with
  | ⟨0, _⟩ => show win0_1.index t (0 : Fin 3) * 1 + 1 * 0 = t.val; omega
  | ⟨1, _⟩ => show win0_1.index t (1 : Fin 3) * 2048 + 1 * k.val = k.val; omega
  | ⟨2, _⟩ => show win0_1.index t (2 : Fin 3) * 1024 + 1 * h.val = h.val; omega

/-- The third weight block at point `t` is expert `t`'s matrix. -/
theorem w3_block (c : Dev nD) (t : Fin cfg0.N) (k : Fin 2048) (h : Fin 1024) :
    iblk0 V c 2 t (ix3 (0 : Fin 1) k h) = (V c main_arg3 : Swiglu.WUp.Idx → EReal) (ix3 (expert t) k h) := by
  obtain ⟨-, -, -, -, -, -, e0, e1, e2, -⟩ := block_index t
  show V c main_arg3 (((cfg0.win 2).blk t).view.emb (ix3 (0 : Fin 1) k h)) = V c main_arg3 (ix3 (expert t) k h)
  refine congrArg (V c main_arg3) (funext fun a => Fin.ext ?_)
  match a with
  | ⟨0, _⟩ => show win0_2.index t (0 : Fin 3) * 1 + 1 * 0 = t.val; omega
  | ⟨1, _⟩ => show win0_2.index t (1 : Fin 3) * 2048 + 1 * k.val = k.val; omega
  | ⟨2, _⟩ => show win0_2.index t (2 : Fin 3) * 1024 + 1 * h.val = h.val; omega

/-- Where entry (0, r, h) of the result block at point `t` sits in the result array: (t, r, h). -/
theorem out_emb (t : Fin cfg0.N) (r : Fin 256) (h : Fin 1024) :
    ((cfg0.win 3).blk t).view.emb (ix3 (0 : Fin 1) r h) = (ix3 (expert t) r h : Swiglu.Hid.Idx) := by
  obtain ⟨-, -, -, -, -, -, -, -, -, e0, e1, e2⟩ := block_index t
  refine funext fun a => Fin.ext ?_
  match a with
  | ⟨0, _⟩ => show win0_3.index t (0 : Fin 3) * 1 + 1 * 0 = t.val; omega
  | ⟨1, _⟩ => show win0_3.index t (1 : Fin 3) * 256 + 1 * r.val = r.val; omega
  | ⟨2, _⟩ => show win0_3.index t (2 : Fin 3) * 1024 + 1 * h.val = h.val; omega

/-- The hidden activations of the arrays as the kernel finds them. -/
abbrev hiddenOf (c : Dev nD) : Swiglu.Hid.Idx → EReal :=
  Swiglu.hidden (V c main_v0) (V c main_arg1) (V c main_arg3)

/-- WHAT POINT `t` WRITES BACK is block `t` of the hidden activations of the entry arrays. -/
theorem flushed_eq (c : Dev nD) (t : Fin cfg0.N) :
    (dat0 V c).flushed 3 t = ((cfg0.win 3).blk t).view.read (Elt Ideal) (hiddenOf V c) := by
  show (cfg0.win 3).cut (grid0.coords t) ((dat0 V c).after 3 t) = _
  rw [after0_3]
  unfold out0_3
  rw [View.canon_unit_zero zero3]
  simp only [View.ld_unit_zero (S := S1x256x2048) zero3, View.ld_unit_zero (S := S1x2048x1024) zero3]
  funext y
  obtain ⟨r, h, rfl⟩ : ∃ (r : Fin 256) (h : Fin 1024), y = ix3 (0 : Fin 1) r h := ⟨_, _, eq_ix3_unit y⟩
  show k0_pay1 (iblk0 V c 0 t) (iblk0 V c 1 t) (iblk0 V c 2 t) (ix3 (0 : Fin 1) r h)
    = hiddenOf V c (((cfg0.win 3).blk t).view.emb (ix3 (0 : Fin 1) r h))
  rw [out_emb t r h]
  refine (stored_apply (iblk0 V c 0 t) (iblk0 V c 1 t) (iblk0 V c 2 t) r h).trans ?_
  show _ = Swiglu.swish (Swiglu.proj (V c main_v0) (V c main_arg1) (expert t) r h) (Swiglu.proj (V c main_v0) (V c main_arg3) (expert t) r h)
  unfold Swiglu.proj
  simp only [tokens_block V c t, w1_block V c t, w3_block V c t]

/-- An index of the result array is in point `t`'s block iff each coordinate is in the block's range on its axis. -/
theorem mem_blk (t : Fin cfg0.N) (i : S64x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v1).slice (win0_3.rect t)).set ↔ _
  rw [View.set_slice_whole, Rect.mem_set_unit]
  exact Iff.rfl

/-- Entry (e, r, h) of the result array is written at point `e`. -/
theorem cover (i : S64x256x1024.Idx) :
    ∃ t : Fin cfg0.N, (cfg0.win 3).flush t = true ∧ i ∈ ((cfg0.win 3).blk t).view.set := by
  have h0 : (i 0).val < 64 := (i 0).isLt
  have h1 : (i 1).val < 256 := (i 1).isLt
  have h2 : (i 2).val < 1024 := (i 2).isLt
  let t : Fin cfg0.N := ⟨(i 0).val, lt_of_lt_of_eq h0 (show 64 = cfg0.N from N_0.symm)⟩
  obtain ⟨-, -, -, -, -, -, -, -, -, e0, e1, e2⟩ := block_index t
  have et : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE RESULT ARRAY after the first kernel: the hidden activations of the entry arrays. -/
theorem final (c : Dev nD) : (dat0 V c).arrAt 3 cfg0.N = hiddenOf V c :=
  (dat0 V c).arrAt_eq_of_cover 3 (hiddenOf V c) (fun t _ => flushed_eq V c t) cover

end Cert.KernelIdeal.GateUp

end
-- ==== Proof.DownBody.lean ====
/-
  What the second kernel's body stores, entry by entry: from a [1, 256, 1024] block of hidden activations and a
  [1, 1024, 2048] block of weights, entry (0, r, d) of the stored block is the inner product of hidden row `r` with
  column `d` of the weight block.
-/
import proofs.«112247_j23682449670360_1_alg».proof.Proof.Gen.KernelIdeal.Skeleton
import proofs.«112247_j23682449670360_1_alg».proof.Proof.LibUnitAxis
import Idealize.ShloMosaic.PureOps.Ideal.Laws
import Idealize.ShloMosaic.Lib.ValueIdx
import Idealize.ShloMosaic.Lib.Pipeline.Value

noncomputable section

namespace Cert.KernelIdeal.Down

open Cert.KernelIdeal Cert.KernelIdeal.Gen Idealize.ShloMosaic Idealize.ShloMosaic.ValueIdx Cert.LibUnitAxis

/-! ## The product's operand indices: rows of the left operand, columns of the right -/

theorem lhs_row (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_inner (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_inner (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_col (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A [256, 1024] by [1024, 2048] product into zero, at entry (r, d): the sum over the 1024 inner positions. -/
theorem product_apply (A : FVec Ideal S256x1024 .bf16) (B : FVec Ideal S1024x2048 .bf16) (r : Fin 256) (d : Fin 2048) :
    matmul dot_S256x1024_S1024x2048_S256x2048_1_0_0_1_n_n none A B (constant (F := Ideal) S256x2048 .f32 0x00000000#32) (ix2 r d)
      = ∑ k : Fin 1024, A (ix2 r k) * B (ix2 k d) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r d) ((contrEquiv1 dot_S256x1024_S1024x2048_S256x2048_1_0_0_1_n_n 1024 rfl rfl).symm k) = ix2 r k := funext fun a => Fin.ext (by
    match a with
    | ⟨0, _⟩ => exact lhs_row _ _
    | ⟨1, _⟩ => exact (lhs_inner _ _).trans hk)
  have er : dot_S256x1024_S1024x2048_S256x2048_1_0_0_1_n_n.rhsIdx (ix2 r d) ((contrEquiv1 dot_S256x1024_S1024x2048_S256x2048_1_0_0_1_n_n 1024 rfl rfl).symm k) = ix2 k d := funext fun a => Fin.ext (by
    match a with
    | ⟨0, _⟩ => exact (rhs_inner _ _).trans hk
    | ⟨1, _⟩ => exact rhs_col _ _)
  rw [el, er]

/-- THE BODY'S STORED BLOCK at (0, r, d). -/
theorem stored_apply (hb : Vec Ideal S1x256x1024 .bf16) (w : Vec Ideal S1x1024x2048 .f32) (r : Fin 256) (d : Fin 2048) :
    k1_pay1 hb w (ix3 (0 : Fin 1) r d) = ∑ k : Fin 1024, hb (ix3 (0 : Fin 1) r k) * w (ix3 (0 : Fin 1) k d) := by
  unfold k1_pay1
  refine (addUnit3_apply _ _ r d).trans ?_
  refine (product_apply _ _ r d).trans ?_
  refine Finset.sum_congr rfl fun k _ => ?_
  rw [truncf_apply, dropUnit3_apply, dropUnit3_apply]

end Cert.KernelIdeal.Down

end
-- ==== Proof.DownArray.lean ====
/-
  The second kernel's result array, whole: whatever the arrays hold when the kernel is entered, after its 64 grid
  points the result array holds, per expert, the hidden rows times the expert's second weight matrix. Point `t` reads
  expert `t`'s blocks and writes expert `t`'s block, so the written blocks are the blocks of ONE function of the entry
  arrays and cover the result array.
-/
import proofs.«112247_j23682449670360_1_alg».proof.Proof.Gen.KernelIdeal.Frame
import proofs.«112247_j23682449670360_1_alg».proof.Proof.Swiglu
import proofs.«112247_j23682449670360_1_alg».proof.Proof.DownBody

set_option maxRecDepth 16384

noncomputable section

namespace Cert.KernelIdeal.Down

open Cert.KernelIdeal Cert.KernelIdeal.Gen Idealize.ShloMosaic Idealize.ShloMosaic.TcCoe Idealize.SL.Sem
open Idealize.ShloMosaic.ValueIdx Cert.LibUnitAxis
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-- Every window of the second kernel moves along the expert axis only: at point `t` its block index is (t, 0, 0). -/
theorem block_index : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

theorem point_lt (t : Fin cfg1.N) : t.val < 64 := lt_of_lt_of_eq t.isLt (show cfg1.N = 64 from N_1)

/-- The expert a grid point works on. -/
abbrev expert (t : Fin cfg1.N) : Fin 64 := ⟨t.val, point_lt t⟩

/-- The hidden block at point `t` is expert `t`'s rows. -/
theorem hidden_block (c : Dev nD) (t : Fin cfg1.N) (r : Fin 256) (k : Fin 1024) :
    iblk1 V c 0 t (ix3 (0 : Fin 1) r k) = (V c main_v1 : Swiglu.Hid.Idx → EReal) (ix3 (expert t) r k) := by
  obtain ⟨e0, e1, e2, -⟩ := block_index t
  show V c main_v1 (((cfg1.win 0).blk t).view.emb (ix3 (0 : Fin 1) r k)) = V c main_v1 (ix3 (expert t) r k)
  refine congrArg (V c main_v1) (funext fun a => Fin.ext ?_)
  match a with
  | ⟨0, _⟩ => show win1_0.index t (0 : Fin 3) * 1 + 1 * 0 = t.val; omega
  | ⟨1, _⟩ => show win1_0.index t (1 : Fin 3) * 256 + 1 * r.val = r.val; omega
  | ⟨2, _⟩ => show win1_0.index t (2 : Fin 3) * 1024 + 1 * k.val = k.val; omega

/-- The weight block at point `t` is expert `t`'s second matrix. -/
theorem w2_block (c : Dev nD) (t : Fin cfg1.N) (k : Fin 1024) (d : Fin 2048) :
    iblk1 V c 1 t (ix3 (0 : Fin 1) k d) = (V c main_arg2 : Swiglu.WDown.Idx → EReal) (ix3 (expert t) k d) := by
  obtain ⟨-, -, -, e0, e1, e2, -⟩ := block_index t
  show V c main_arg2 (((cfg1.win 1).blk t).view.emb (ix3 (0 : Fin 1) k d)) = V c main_arg2 (ix3 (expert t) k d)
  refine congrArg (V c main_arg2) (funext fun a => Fin.ext ?_)
  match a with
  | ⟨0, _⟩ => show win1_1.index t (0 : Fin 3) * 1 + 1 * 0 = t.val; omega
  | ⟨1, _⟩ => show win1_1.index t (1 : Fin 3) * 1024 + 1 * k.val = k.val; omega
  | ⟨2, _⟩ => show win1_1.index t (2 : Fin 3) * 2048 + 1 * d.val = d.val; omega

/-- Where entry (0, r, d) of the result block at point `t` sits in the result array: (t, r, d). -/
theorem out_emb (t : Fin cfg1.N) (r : Fin 256) (d : Fin 2048) :
    ((cfg1.win 2).blk t).view.emb (ix3 (0 : Fin 1) r d) = (ix3 (expert t) r d : Swiglu.TokE.Idx) := by
  obtain ⟨-, -, -, -, -, -, e0, e1, e2⟩ := block_index t
  refine funext fun a => Fin.ext ?_
  match a with
  | ⟨0, _⟩ => show win1_2.index t (0 : Fin 3) * 1 + 1 * 0 = t.val; omega
  | ⟨1, _⟩ => show win1_2.index t (1 : Fin 3) * 256 + 1 * r.val = r.val; omega
  | ⟨2, _⟩ => show win1_2.index t (2 : Fin 3) * 2048 + 1 * d.val = d.val; omega

/-- The down projection of the arrays as the kernel finds them. -/
abbrev downOf (c : Dev nD) : Swiglu.TokE.Idx → EReal := Swiglu.down (V c main_v1) (V c main_arg2)

/-- WHAT POINT `t` WRITES BACK is block `t` of the down projection of the entry arrays. -/
theorem flushed_eq (c : Dev nD) (t : Fin cfg1.N) :
    (dat1 V c).flushed 2 t = ((cfg1.win 2).blk t).view.read (Elt Ideal) (downOf V c) := by
  show (cfg1.win 2).cut (grid1.coords t) ((dat1 V c).after 2 t) = _
  rw [after1_2]
  unfold out1_2
  rw [View.canon_unit_zero zero3]
  simp only [View.ld_unit_zero (S := S1x256x1024) zero3, View.ld_unit_zero (S := S1x1024x2048) zero3]
  funext y
  obtain ⟨r, d, rfl⟩ : ∃ (r : Fin 256) (d : Fin 2048), y = ix3 (0 : Fin 1) r d := ⟨_, _, eq_ix3_unit y⟩
  show k1_pay1 (iblk1 V c 0 t) (iblk1 V c 1 t) (ix3 (0 : Fin 1) r d)
    = downOf V c (((cfg1.win 2).blk t).view.emb (ix3 (0 : Fin 1) r d))
  rw [out_emb t r d]
  refine (stored_apply (iblk1 V c 0 t) (iblk1 V c 1 t) r d).trans ?_
  show _ = Swiglu.downAt (V c main_v1) (V c main_arg2) (expert t) r d
  unfold Swiglu.downAt
  simp only [hidden_block V c t, w2_block V c t]

/-- An index of the result array is in point `t`'s block iff each coordinate is in the block's range on its axis. -/
theorem mem_blk (t : Fin cfg1.N) (i : S64x256x2048.Idx) :
    i ∈ ((cfg1.win 2).blk t).view.set ↔ ∀ a : Fin 3, win1_2.index t a * S1x256x2048.size a ≤ (i a).val ∧ (i a).val < win1_2.index t a * S1x256x2048.size a + S1x256x2048.size a := by
  show i ∈ ((View.whole main_v2).slice (win1_2.rect t)).set ↔ _
  rw [View.set_slice_whole, Rect.mem_set_unit]
  exact Iff.rfl

/-- Entry (e, r, d) of the result array is written at point `e`. -/
theorem cover (i : S64x256x2048.Idx) :
    ∃ t : Fin cfg1.N, (cfg1.win 2).flush t = true ∧ i ∈ ((cfg1.win 2).blk t).view.set := by
  have h0 : (i 0).val < 64 := (i 0).isLt
  have h1 : (i 1).val < 256 := (i 1).isLt
  have h2 : (i 2).val < 2048 := (i 2).isLt
  let t : Fin cfg1.N := ⟨(i 0).val, lt_of_lt_of_eq h0 (show 64 = cfg1.N from N_1.symm)⟩
  obtain ⟨-, -, -, -, -, -, e0, e1, e2⟩ := block_index t
  have et : t.val = (i 0).val := rfl
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 2048 ≤ (i 2).val ∧ (i 2).val < win1_2.index t (2 : Fin 3) * 2048 + 2048; omega

/-- THE RESULT ARRAY after the second kernel: the down projection of the entry arrays. -/
theorem final (c : Dev nD) : (dat1 V c).arrAt 2 cfg1.N = downOf V c :=
  (dat1 V c).arrAt_eq_of_cover 2 (downOf V c) (fun t _ => flushed_eq V c t) cover

end Cert.KernelIdeal.Down

end
-- ==== Proof.KernelValue.lean ====
/-
  The kernel program's result array as the specification of its arguments, through the program's four stretches:
  the reshape groups the tokens by expert; the first kernel leaves the hidden activations of the grouped tokens and
  the first and third weights, which it finds as launched; the second kernel leaves their down projection against
  the second weights, which no stretch before it writes; the last reshape lays the groups end to end.
-/
import proofs.«112247_j23682449670360_1_alg».proof.Proof.Gen.KernelIdeal.Frame
import proofs.«112247_j23682449670360_1_alg».proof.Proof.GateUpArray
import proofs.«112247_j23682449670360_1_alg».proof.Proof.DownArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Entering the first kernel -/

/-- The grouped tokens. -/
theorem tokens_at_entry (c : Dev nD) :
    (V1 m ρ c main_v0 : Swiglu.TokE.Idx → EReal) = Swiglu.regroup (m ((c : Thread nD τ).loc main_arg0)) := by
  show after hostOps0 (W0 m ρ c) (Proc.devRef .tc main_v0) = _
  after_results
  exact Swiglu.shapeCast_regroup _ _

/-- The weights are as launched. -/
theorem w1_at_entry (c : Dev nD) : V1 m ρ c main_arg1 = m ((c : Thread nD τ).loc main_arg1) := by
  show after hostOps0 (W0 m ρ c) (Proc.devRef .tc main_arg1) = _
  after_results
theorem w3_at_entry (c : Dev nD) : V1 m ρ c main_arg3 = m ((c : Thread nD τ).loc main_arg3) := by
  show after hostOps0 (W0 m ρ c) (Proc.devRef .tc main_arg3) = _
  after_results
theorem w2_at_entry (c : Dev nD) : V1 m ρ c main_arg2 = m ((c : Thread nD τ).loc main_arg2) := by
  show after hostOps0 (W0 m ρ c) (Proc.devRef .tc main_arg2) = _
  after_results

/-! ## Between the kernels -/

/-- The first kernel leaves the hidden activations. -/
theorem hidden_between (c : Dev nD) :
    (V2 m ρ c main_v1 : Swiglu.Hid.Idx → EReal)
      = Swiglu.hidden (Swiglu.regroup (m ((c : Thread nD τ).loc main_arg0))) (m ((c : Thread nD τ).loc main_arg1)) (m ((c : Thread nD τ).loc main_arg3)) := by
  refine (W2_arr m ρ c 3).trans ?_
  rw [GateUp.final (V1 m ρ) c]
  show Swiglu.hidden (V1 m ρ c main_v0) (V1 m ρ c main_arg1) (V1 m ρ c main_arg3) = _
  rw [tokens_at_entry, w1_at_entry, w3_at_entry]

/-- The first kernel does not touch the second weights. -/
theorem w2_between (c : Dev nD) : V2 m ρ c main_arg2 = m ((c : Thread nD τ).loc main_arg2) :=
  (W2_of_ne m ρ c main_arg2 (by decide)).trans (w2_at_entry m ρ c)

/-! ## After the second kernel, and the last reshape -/

/-- The second kernel leaves the down projection. -/
theorem down_after (c : Dev nD) :
    (V3 m ρ c main_v2 : Swiglu.TokE.Idx → EReal)
      = Swiglu.down (Swiglu.hidden (Swiglu.regroup (m ((c : Thread nD τ).loc main_arg0))) (m ((c : Thread nD τ).loc main_arg1)) (m ((c : Thread nD τ).loc main_arg3)))
          (m ((c : Thread nD τ).loc main_arg2)) := by
  refine (W3_arr m ρ c 2).trans ?_
  rw [Down.final (V2 m ρ) c]
  show Swiglu.down (V2 m ρ c main_v1) (V2 m ρ c main_arg2) = _
  rw [hidden_between, w2_between]

/-- THE RESULT ARRAY at the program's end is the specification of the launch arguments. -/
theorem result_eq (c : Dev nD) :
    W4 m ρ c (Proc.devRef .tc main_v3)
      = Swiglu.result (m ((c : Thread nD τ).loc main_arg0)) (m ((c : Thread nD τ).loc main_arg1)) (m ((c : Thread nD τ).loc main_arg2)) (m ((c : Thread nD τ).loc main_arg3)) := by
  show after hostOps2 (W3 m ρ c) (Proc.devRef .tc main_v3) = _
  after_results
  refine (Swiglu.shapeCast_ungroup _ _).trans ?_
  exact congrArg Swiglu.ungroup (down_after m ρ c)

end Cert.KernelIdeal.Whole

end
-- ==== Proof.RefValue.lean ====
/-
  The reference program's result is the specification: its reshape is the grouping of tokens by expert, each of its
  three batched products is a per-expert sum of products, its `silu` spells the logistic function out as
  `1 / (1 + e^(-g))` with the constant one, and its last reshape lays the groups end to end.
-/
import proofs.«112247_j23682449670360_1_alg».proof.Proof.Gen.ReferenceIdeal.Read
import proofs.«112247_j23682449670360_1_alg».proof.Proof.Swiglu

noncomputable section

namespace Cert.ReferenceIdeal.RefValue

open Cert.ReferenceIdeal Cert.ReferenceIdeal.Gen Cert.ReferenceIdeal.Read Idealize.ShloMosaic Idealize.ShloMosaic.ValueIdx

/-! ## The operand indices of the three products, as coordinates -/

theorem lidx1 (j : S64x256x1024.Idx) (k : Fin 2048) :
    lidx_main_v1 j k = ix3 (⟨(j 0).val, (j 0).isLt⟩ : Fin 64) (⟨(j 1).val, (j 1).isLt⟩ : Fin 256) k :=
  funext fun a => by match a with | ⟨0, _⟩ => rfl | ⟨1, _⟩ => rfl | ⟨2, _⟩ => rfl
theorem ridx1 (j : S64x256x1024.Idx) (k : Fin 2048) :
    ridx_main_v1 j k = ix3 (⟨(j 0).val, (j 0).isLt⟩ : Fin 64) k (⟨(j 2).val, (j 2).isLt⟩ : Fin 1024) :=
  funext fun a => by match a with | ⟨0, _⟩ => rfl | ⟨1, _⟩ => rfl | ⟨2, _⟩ => rfl
theorem lidx3 (j : S64x256x1024.Idx) (k : Fin 2048) :
    lidx_main_v3 j k = ix3 (⟨(j 0).val, (j 0).isLt⟩ : Fin 64) (⟨(j 1).val, (j 1).isLt⟩ : Fin 256) k :=
  funext fun a => by match a with | ⟨0, _⟩ => rfl | ⟨1, _⟩ => rfl | ⟨2, _⟩ => rfl
theorem ridx3 (j : S64x256x1024.Idx) (k : Fin 2048) :
    ridx_main_v3 j k = ix3 (⟨(j 0).val, (j 0).isLt⟩ : Fin 64) k (⟨(j 2).val, (j 2).isLt⟩ : Fin 1024) :=
  funext fun a => by match a with | ⟨0, _⟩ => rfl | ⟨1, _⟩ => rfl | ⟨2, _⟩ => rfl
theorem lidx5 (i : S64x256x2048.Idx) (k : Fin 1024) :
    lidx_main_v5 i k = ix3 (⟨(i 0).val, (i 0).isLt⟩ : Fin 64) (⟨(i 1).val, (i 1).isLt⟩ : Fin 256) k :=
  funext fun a => by match a with | ⟨0, _⟩ => rfl | ⟨1, _⟩ => rfl | ⟨2, _⟩ => rfl
theorem ridx5 (i : S64x256x2048.Idx) (k : Fin 1024) :
    ridx_main_v5 i k = ix3 (⟨(i 0).val, (i 0).isLt⟩ : Fin 64) k (⟨(i 2).val, (i 2).isLt⟩ : Fin 2048) :=
  funext fun a => by match a with | ⟨0, _⟩ => rfl | ⟨1, _⟩ => rfl | ⟨2, _⟩ => rfl

/-! ## Stage by stage -/

/-- The reshape of the tokens is the grouping by expert. -/
theorem tokens_eq (x0 : (⟨S16384x2048, .f32⟩ : BufTy).Contents (Elt Ideal)) :
    val_main_v0 (F := Ideal) x0 = Swiglu.regroup x0 :=
  Swiglu.shapeCast_regroup x0 _

/-- The gate product is the projection against the first weights. -/
theorem gate_eq (x0 : (⟨S16384x2048, .f32⟩ : BufTy).Contents (Elt Ideal)) (x1 : (⟨S64x2048x1024, .f32⟩ : BufTy).Contents (Elt Ideal))
    (j : S64x256x1024.Idx) :
    val_main_v1 (F := Ideal) x0 x1 j
      = Swiglu.proj (Swiglu.regroup x0) x1 ⟨(j 0).val, (j 0).isLt⟩ ⟨(j 1).val, (j 1).isLt⟩ ⟨(j 2).val, (j 2).isLt⟩ := by
  rw [val_main_v1_apply, tokens_eq]
  unfold Swiglu.proj
  refine Finset.sum_congr rfl fun k _ => ?_
  rw [lidx1, ridx1]

/-- The up product is the projection against the third weights. -/
theorem up_eq (x0 : (⟨S16384x2048, .f32⟩ : BufTy).Contents (Elt Ideal)) (x3 : (⟨S64x2048x1024, .f32⟩ : BufTy).Contents (Elt Ideal))
    (j : S64x256x1024.Idx) :
    val_main_v3 (F := Ideal) x0 x3 j
      = Swiglu.proj (Swiglu.regroup x0) x3 ⟨(j 0).val, (j 0).isLt⟩ ⟨(j 1).val, (j 1).isLt⟩ ⟨(j 2).val, (j 2).isLt⟩ := by
  rw [val_main_v3_apply, tokens_eq]
  unfold Swiglu.proj
  refine Finset.sum_congr rfl fun k _ => ?_
  rw [lidx3, ridx3]

/-- The gated product `silu(gate) · up` is the hidden activation. -/
theorem hidden_eq (x0 : (⟨S16384x2048, .f32⟩ : BufTy).Contents (Elt Ideal)) (x1 x3 : (⟨S64x2048x1024, .f32⟩ : BufTy).Contents (Elt Ideal)) :
    val_main_v4 (F := Ideal) x0 x1 x3 = Swiglu.hidden (Swiglu.regroup x0) x1 x3 := by
  funext j
  show val_main_v1 (F := Ideal) x0 x1 j
      * Ideal.div (Ideal.ofBits .f32 0x3F800000#32) (Ideal.ofBits .f32 0x3F800000#32 + Ideal.exp (-(val_main_v1 (F := Ideal) x0 x1 j)))
      * val_main_v3 (F := Ideal) x0 x3 j = _
  rw [Swiglu.logistic_spelt, gate_eq, up_eq]
  rfl

/-- The last product is the down projection. -/
theorem down_eq (x0 : (⟨S16384x2048, .f32⟩ : BufTy).Contents (Elt Ideal)) (x1 : (⟨S64x2048x1024, .f32⟩ : BufTy).Contents (Elt Ideal))
    (x2 : (⟨S64x1024x2048, .f32⟩ : BufTy).Contents (Elt Ideal)) (x3 : (⟨S64x2048x1024, .f32⟩ : BufTy).Contents (Elt Ideal)) :
    val_main_v5 (F := Ideal) x0 x1 x2 x3 = Swiglu.down (Swiglu.hidden (Swiglu.regroup x0) x1 x3) x2 := by
  funext i
  rw [val_main_v5_apply, hidden_eq]
  unfold Swiglu.down Swiglu.downAt
  refine Finset.sum_congr rfl fun k _ => ?_
  rw [lidx5, ridx5]

/-- THE REFERENCE'S RESULT is the specification of the arguments. -/
theorem result_eq (x0 : (⟨S16384x2048, .f32⟩ : BufTy).Contents (Elt Ideal)) (x1 : (⟨S64x2048x1024, .f32⟩ : BufTy).Contents (Elt Ideal))
    (x2 : (⟨S64x1024x2048, .f32⟩ : BufTy).Contents (Elt Ideal)) (x3 : (⟨S64x2048x1024, .f32⟩ : BufTy).Contents (Elt Ideal)) :
    val_main_v6 (F := Ideal) x0 x1 x2 x3 = Swiglu.result x0 x1 x2 x3 := by
  unfold val_main_v6 Swiglu.result
  rw [down_eq]
  exact Swiglu.shapeCast_ungroup _ _

end Cert.ReferenceIdeal.RefValue

end
-- ==== Proof.lean ====
/-
  Sixty-four experts, each a SwiGLU feed-forward block `(silu(x w1) · (x w3)) w2` on its own 256 tokens: the kernel
  program computes it with two grids of 64 points, one expert per point, rounding to bf16 before each matrix
  product and storing the hidden activations in bf16; the reference with three batched products in f32 and `silu`
  spelt `g · (1 / (1 + e^(-g)))`. On the extended reals the format changes are the identity, a matrix product into zero
  is the sum of products, and the kernel's logistic IS that quotient, so both programs compute the same function of
  the arguments, entry by entry (Proof/Swiglu.lean): the kernel by Proof/KernelValue.lean over its run
  (Proof/KernelIdealRun.lean), the reference by Proof/RefValue.lean over its generated run. No law that needs finite
  inputs is used: the two sides are the same sums of the same products.
-/
import proofs.«112247_j23682449670360_1_alg».proof.Defs
import proofs.«112247_j23682449670360_1_alg».proof.Proof.Gen.Kernel
import proofs.«112247_j23682449670360_1_alg».proof.Proof.Gen.Kernel.Skeleton
import proofs.«112247_j23682449670360_1_alg».proof.Proof.Gen.Kernel.Launch
import proofs.«112247_j23682449670360_1_alg».proof.Proof.Gen.Kernel.Points
import proofs.«112247_j23682449670360_1_alg».proof.Proof.Gen.Kernel.Frame
import proofs.«112247_j23682449670360_1_alg».proof.Proof.Gen.KernelIdeal
import proofs.«112247_j23682449670360_1_alg».proof.Proof.Gen.KernelIdeal.Skeleton
import proofs.«112247_j23682449670360_1_alg».proof.Proof.Gen.KernelIdeal.Launch
import proofs.«112247_j23682449670360_1_alg».proof.Proof.Gen.KernelIdeal.Points
import proofs.«112247_j23682449670360_1_alg».proof.Proof.Gen.KernelIdeal.Frame
import proofs.«112247_j23682449670360_1_alg».proof.Proof.Gen.ReferenceIdeal
import proofs.«112247_j23682449670360_1_alg».proof.Proof.Gen.ReferenceIdeal.Run
import proofs.«112247_j23682449670360_1_alg».proof.Proof.Gen.ReferenceIdeal.Read
import proofs.«112247_j23682449670360_1_alg».proof.Proof.Gen.Pre_finite_inputs
import proofs.«112247_j23682449670360_1_alg».proof.Proof.KernelIdealRun
import proofs.«112247_j23682449670360_1_alg».proof.Proof.KernelValue
import proofs.«112247_j23682449670360_1_alg».proof.Proof.RefValue
import Idealize.ShloMosaic.Adequacy
import Idealize.ShloMosaic.Init

noncomputable section

namespace Cert.Proof

open Idealize.ShloMosaic Idealize.SL.Sem

/-- Both idealized programs run, from memories that agree on the arguments, to the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Swiglu.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v6_eq, Cert.ReferenceIdeal.RefValue.result_eq,
      (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
